-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S384x128 : Shape := ⟨2, ![384, 128]⟩
abbrev S384x80 : Shape := ⟨2, ![384, 80]⟩
abbrev S_ : Shape := ⟨0, ![]⟩

class Facts : Prop where
  bcast_S_S384x128 : S_.BroadcastsInDim S384x128 (![] : Fin 0 → Fin S384x128.rank)
  reducesTo_S384x128_S_d0_1 : S384x128.ReducesTo [0, 1] S_
  h_S_ : 0 < S_.numel

variable [Facts]

def fn {F : FTy → Type} [FloatOps F] (main_arg0 : FVec F S384x128 .f32) (main_arg1 : IVec S384x80 32) : IVec S_ 1 :=
  let main_v0 : FVec F S384x128 .f32 := Host.absf main_arg0
  let main_cst : FVec F S_ .f32 := constant S_ .f32 0x7F800000#32
  let main_v1 : FVec F S384x128 .f32 := broadcastInDim S384x128 ![] bcast_S_S384x128 main_cst
  let main_v2 : IVec S384x128 1 := cmpf .olt main_v0 main_v1
  let main_c : IVec S_ 1 := constantI S_ 1 1#1
  let main_v3 : IVec S_ 1 := (fun x v => Host.reduce IntOp.andi x v reducesTo_S384x128_S_d0_1 h_S_) main_v2 main_c
  main_v3
-- ==== Kernel.lean ====
abbrev S384x128 : Shape := ⟨2, ![384, 128]⟩
abbrev S384x80 : Shape := ⟨2, ![384, 80]⟩
abbrev S128x384 : Shape := ⟨2, ![128, 384]⟩
abbrev S384x384 : Shape := ⟨2, ![384, 384]⟩
abbrev S80x384 : Shape := ⟨2, ![80, 384]⟩
abbrev S_ : Shape := ⟨0, ![]⟩
abbrev S384 : Shape := ⟨1, ![384]⟩
abbrev S384x1 : Shape := ⟨2, ![384, 1]⟩
abbrev S8x384 : Shape := ⟨2, ![8, 384]⟩
abbrev S8x1 : Shape := ⟨2, ![8, 1]⟩
abbrev S8x384x1 : Shape := ⟨3, ![8, 384, 1]⟩
abbrev S8x1x384 : Shape := ⟨3, ![8, 1, 384]⟩
abbrev S8x384x384 : Shape := ⟨3, ![8, 384, 384]⟩
abbrev S8 : Shape := ⟨1, ![8]⟩

abbrev nBuf : Space → Nat
  | .hbm => 52
  | .vmem => 6
  | .smem => 0
  | _ => 0

abbrev bufTy : (tb : Table) → Fin (tcTables nBuf tb) → BufTy
  | .hbm, ⟨0, _⟩ => ⟨S384x128, .f32⟩
  | .hbm, ⟨1, _⟩ => ⟨S384x80, .i32⟩
  | .hbm, ⟨2, _⟩ => ⟨S384x80, .f32⟩
  | .hbm, ⟨3, _⟩ => ⟨S128x384, .f32⟩
  | .hbm, ⟨4, _⟩ => ⟨S384x384, .f32⟩
  | .hbm, ⟨5, _⟩ => ⟨S80x384, .f32⟩
  | .hbm, ⟨6, _⟩ => ⟨S384x384, .f32⟩
  | .hbm, ⟨7, _⟩ => ⟨S_, .f32⟩
  | .hbm, ⟨8, _⟩ => ⟨S384x384, .f32⟩
  | .hbm, ⟨9, _⟩ => ⟨S384x384, .i1⟩
  | .hbm, ⟨10, _⟩ => ⟨S384x384, .f32⟩
  | .hbm, ⟨11, _⟩ => ⟨S_, .f32⟩
  | .hbm, ⟨12, _⟩ => ⟨S384, .f32⟩
  | .hbm, ⟨13, _⟩ => ⟨S_, .f32⟩
  | .hbm, ⟨14, _⟩ => ⟨S384, .f32⟩
  | .hbm, ⟨15, _⟩ => ⟨S384, .f32⟩
  | .hbm, ⟨16, _⟩ => ⟨S384, .f32⟩
  | .hbm, ⟨17, _⟩ => ⟨S_, .f32⟩
  | .hbm, ⟨18, _⟩ => ⟨S384, .f32⟩
  | .hbm, ⟨19, _⟩ => ⟨S384, .i1⟩
  | .hbm, ⟨20, _⟩ => ⟨S384x1, .f32⟩
  | .hbm, ⟨21, _⟩ => ⟨S384, .f32⟩
  | .hbm, ⟨22, _⟩ => ⟨S_, .f32⟩
  | .hbm, ⟨23, _⟩ => ⟨S_, .f32⟩
  | .hbm, ⟨24, _⟩ => ⟨S384, .f32⟩
  | .hbm, ⟨25, _⟩ => ⟨S384, .f32⟩
  | .hbm, ⟨26, _⟩ => ⟨S384, .f32⟩
  | .hbm, ⟨27, _⟩ => ⟨S384, .i32⟩
  | .hbm, ⟨28, _⟩ => ⟨S_, .i32⟩
  | .hbm, ⟨29, _⟩ => ⟨S_, .i32⟩
  | .hbm, ⟨30, _⟩ => ⟨S_, .f32⟩
  | .hbm, ⟨31, _⟩ => ⟨S_, .f32⟩
  | .hbm, ⟨32, _⟩ => ⟨S_, .i1⟩
  | .hbm, ⟨33, _⟩ => ⟨S384, .f32⟩
  | .hbm, ⟨34, _⟩ => ⟨S384, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S384x128, .f32⟩
  | .hbm, ⟨43, _⟩ => ⟨S384x128, .f32⟩
  | .hbm, ⟨44, _⟩ => ⟨S384x128, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .local _ .vmem, ⟨0, _⟩ => ⟨S8x384, .f32⟩
  | .local _ .vmem, ⟨1, _⟩ => ⟨S8x384, .f32⟩
  | .local _ .vmem, ⟨2, _⟩ => ⟨S8x384, .f32⟩
  | .local _ .vmem, ⟨3, _⟩ => ⟨S8x384, .f32⟩
  | .local _ .vmem, ⟨4, _⟩ => ⟨S8x1, .f32⟩
  | .local _ .vmem, ⟨5, _⟩ => ⟨S8x1, .f32⟩
  | _, _ => ⟨S384x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_2 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_3 : Ref sig .tc := ⟨.hbm, 22, rfl⟩
abbrev main_call0_v0 : Ref sig .tc := ⟨.hbm, 23, rfl⟩
abbrev main_call0_v1 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_c : Ref sig .tc := ⟨.hbm, 28, rfl⟩
abbrev main_v19 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_5 : Ref sig .tc := ⟨.hbm, 35, rfl⟩
abbrev main_v24 : Ref sig .tc := ⟨.hbm, 36, rfl⟩
abbrev main_cst_6 : Ref sig .tc := ⟨.hbm, 37, rfl⟩
abbrev main_v25 : Ref sig .tc := ⟨.hbm, 38, rfl⟩
abbrev main_v26 : Ref sig .tc := ⟨.hbm, 39, rfl⟩
abbrev main_cst_7 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_8 : Ref sig .tc := ⟨.hbm, 45, rfl⟩
abbrev main_v31 : Ref sig .tc := ⟨.hbm, 46, rfl⟩
abbrev main_cst_9 : Ref sig .tc := ⟨.hbm, 47, rfl⟩
abbrev main_v32 : Ref sig .tc := ⟨.hbm, 48, rfl⟩
abbrev main_cst_10 : Ref sig .tc := ⟨.hbm, 49, rfl⟩
abbrev main_v33 : Ref sig .tc := ⟨.hbm, 50, rfl⟩
abbrev main_v34 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![48], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  transposes_S384x128_S128x384_1_0 : S384x128.Transposes [1, 0] S128x384
  transposes_S384x80_S80x384_1_0 : S384x80.Transposes [1, 0] S80x384
  bcast_S_S384x384 : S_.BroadcastsInDim S384x384 (![] : Fin 0 → Fin S384x384.rank)
  reducesTo_S384x384_S384_d1 : S384x384.ReducesTo [1] S384
  h_S_ : 0 < S_.numel
  bcast_S_S384 : S_.BroadcastsInDim S384 (![] : Fin 0 → Fin S384.rank)
  inb_S8x384_S8x384_0_0 : ∀ a, (![0, 0] : Fin 2 → Nat) a + S8x384.size a ≤ S8x384.size a
  h_S8x384 : 0 < S8x384.numel
  shapeCasts_S8x384_S8x384 : S8x384.ShapeCasts S8x384
  shapeCasts_S8x384_S8x384x1 : S8x384.ShapeCasts S8x384x1
  shapeCasts_S8x384_S8x1x384 : S8x384.ShapeCasts S8x1x384
  broadcasts_S8x384x1_S8x384x384 : S8x384x1.Broadcasts S8x384x384
  broadcasts_S8x1x384_S8x384x384 : S8x1x384.Broadcasts S8x384x384
  reduces_S8x384x384_S8x384 : S8x384x384.Reduces [2] S8x384
  reduces_S8x384_S8 : S8x384.Reduces [1] S8
  shapeCasts_S8_S8x1 : S8.ShapeCasts S8x1
  inb_S8x1_S8x1_0_0 : ∀ a, (![0, 0] : Fin 2 → Nat) a + S8x1.size a ≤ S8x1.size a
  h_S8x1 : 0 < S8x1.numel
  shapeCasts_S384x1_S384 : S384x1.ShapeCasts S384
  natLt_1_32 : 1 < 32
  reducesTo_S384_S_d0 : S384.ReducesTo [0] S_
  reducesTo_S384x128_S_d0_1 : S384x128.ReducesTo [0, 1] S_
  dot_S384x128_S128x384_S384x384_1_0_0_1_n_n_wf : DotDims.WF S384x128 S128x384 S384x384 [1] [0] [0] [1] [] []
  dot_S384x80_S80x384_S384x384_1_0_0_1_n_n_wf : DotDims.WF S384x80 S80x384 S384x384 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x384.size a ≤ S384x384.size a
  hwx0_0 : ∀ i : grid0.Coords, EltTy.bits .f32 = 32 ∨ (Rect.block (s := S384x384) S8x384.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x384.size a ≤ S384x384.size a
  hwx0_1 : ∀ i : grid0.Coords, EltTy.bits .f32 = 32 ∨ (Rect.block (s := S384x384) S8x384.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x1.size a ≤ S384x1.size a
  hwx0_2 : ∀ i : grid0.Coords, EltTy.bits .f32 = 32 ∨ (Rect.block (s := S384x1) S8x1.size (cc0_transform_2 i) (hinb0_2 i)).WholeWords (EltTy.packing .f32)

variable [Facts₀]

def dot_S384x128_S128x384_S384x384_1_0_0_1_n_n : DotDims S384x128 S128x384 S384x384 where
  lhsContracting := [1]
  rhsContracting := [0]
  lhsNonContracting := [0]
  rhsNonContracting := [1]
  lhsBatch := []
  rhsBatch := []
  wf := dot_S384x128_S128x384_S384x384_1_0_0_1_n_n_wf
def dot_S384x80_S80x384_S384x384_1_0_0_1_n_n : DotDims S384x80 S80x384 S384x384 where
  lhsContracting := [1]
  rhsContracting := [0]
  lhsNonContracting := [0]
  rhsNonContracting := [1]
  lhsBatch := []
  rhsBatch := []
  wf := dot_S384x80_S80x384_S384x384_1_0_0_1_n_n_wf

abbrev win0_0 : Pipeline.Window sig grid0 :=
  Pipeline.Window.ofSpec (Memref.whole main_v2) S8x384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S8x384.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v14) S8x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S384x128 : Shape := ⟨2, ![384, 128]⟩
abbrev S384x80 : Shape := ⟨2, ![384, 80]⟩
abbrev S128x384 : Shape := ⟨2, ![128, 384]⟩
abbrev S384x384 : Shape := ⟨2, ![384, 384]⟩
abbrev S80x384 : Shape := ⟨2, ![80, 384]⟩
abbrev S_ : Shape := ⟨0, ![]⟩
abbrev S384x384x1 : Shape := ⟨3, ![384, 384, 1]⟩
abbrev S384x1x384 : Shape := ⟨3, ![384, 1, 384]⟩
abbrev S384x384x384 : Shape := ⟨3, ![384, 384, 384]⟩
abbrev S384 : Shape := ⟨1, ![384]⟩

abbrev nBuf : Space → Nat
  | .hbm => 91
  | .vmem => 0
  | .smem => 0
  | _ => 0

abbrev bufTy : (tb : Table) → Fin (tcTables nBuf tb) → BufTy
  | .hbm, ⟨0, _⟩ => ⟨S384x128, .f32⟩
  | .hbm, ⟨1, _⟩ => ⟨S384x80, .i32⟩
  | .hbm, ⟨2, _⟩ => ⟨S384x80, .f32⟩
  | .hbm, ⟨3, _⟩ => ⟨S128x384, .f32⟩
  | .hbm, ⟨4, _⟩ => ⟨S384x384, .f32⟩
  | .hbm, ⟨5, _⟩ => ⟨S80x384, .f32⟩
  | .hbm, ⟨6, _⟩ => ⟨S384x384, .f32⟩
  | .hbm, ⟨7, _⟩ => ⟨S_, .f32⟩
  | .hbm, ⟨8, _⟩ => ⟨S384x384, .f32⟩
  | .hbm, ⟨9, _⟩ => ⟨S384x384, .i1⟩
  | .hbm, ⟨10, _⟩ => ⟨S384x384, .f32⟩
  | .hbm, ⟨11, _⟩ => ⟨S_, .f32⟩
  | .hbm, ⟨12, _⟩ => ⟨S384x384, .f32⟩
  | .hbm, ⟨13, _⟩ => ⟨S384x384, .f32⟩
  | .hbm, ⟨14, _⟩ => ⟨S384x384x1, .f32⟩
  | .hbm, ⟨15, _⟩ => ⟨S384x1x384, .f32⟩
  | .hbm, ⟨16, _⟩ => ⟨S384x384x384, .f32⟩
  | .hbm, ⟨17, _⟩ => ⟨S384x384x384, .f32⟩
  | .hbm, ⟨18, _⟩ => ⟨S384x384x384, .f32⟩
  | .hbm, ⟨19, _⟩ => ⟨S_, .f32⟩
  | .hbm, ⟨20, _⟩ => ⟨S384x384x384, .f32⟩
  | .hbm, ⟨21, _⟩ => ⟨S384x384x384, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S384x384x384, .f32⟩
  | .hbm, ⟨26, _⟩ => ⟨S384x384x384, .f32⟩
  | .hbm, ⟨27, _⟩ => ⟨S_, .f32⟩
  | .hbm, ⟨28, _⟩ => ⟨S384x384x384, .f32⟩
  | .hbm, ⟨29, _⟩ => ⟨S384x384x384, .f32⟩
  | .hbm, ⟨30, _⟩ => ⟨S384x384x384, .f32⟩
  | .hbm, ⟨31, _⟩ => ⟨S_, .f32⟩
  | .hbm, ⟨32, _⟩ => ⟨S384x384x384, .f32⟩
  | .hbm, ⟨33, _⟩ => ⟨S384x384x384, .f32⟩
  | .hbm, ⟨34, _⟩ => ⟨S384x384x384, .f32⟩
  | .hbm, ⟨35, _⟩ => ⟨S384x384x384, .f32⟩
  | .hbm, ⟨36, _⟩ => ⟨S384x384x384, .i1⟩
  | .hbm, ⟨37, _⟩ => ⟨S384x384x384, .f32⟩
  | .hbm, ⟨38, _⟩ => ⟨S384x384x384, .f32⟩
  | .hbm, ⟨39, _⟩ => ⟨S384x384x384, .f32⟩
  | .hbm, ⟨40, _⟩ => ⟨S384x384x384, .f32⟩
  | .hbm, ⟨41, _⟩ => ⟨S384x384x384, .f32⟩
  | .hbm, ⟨42, _⟩ => ⟨S384x384x384, .f32⟩
  | .hbm, ⟨43, _⟩ => ⟨S384x384x384, .f32⟩
  | .hbm, ⟨44, _⟩ => ⟨S384x384x384, .f32⟩
  | .hbm, ⟨45, _⟩ => ⟨S384x384x1, .f32⟩
  | .hbm, ⟨46, _⟩ => ⟨S384x1x384, .f32⟩
  | .hbm, ⟨47, _⟩ => ⟨S384x384x384, .f32⟩
  | .hbm, ⟨48, _⟩ => ⟨S384x384x384, .f32⟩
  | .hbm, ⟨49, _⟩ => ⟨S384x384x384, .f32⟩
  | .hbm, ⟨50, _⟩ => ⟨S_, .f32⟩
  | .hbm, ⟨51, _⟩ => ⟨S384, .f32⟩
  | .hbm, ⟨52, _⟩ => ⟨S_, .f32⟩
  | .hbm, ⟨53, _⟩ => ⟨S384, .f32⟩
  | .hbm, ⟨54, _⟩ => ⟨S384, .f32⟩
  | .hbm, ⟨55, _⟩ => ⟨S_, .f32⟩
  | .hbm, ⟨56, _⟩ => ⟨S384, .f32⟩
  | .hbm, ⟨57, _⟩ => ⟨S384, .i1⟩
  | .hbm, ⟨58, _⟩ => ⟨S384x384x384, .f32⟩
  | .hbm, ⟨59, _⟩ => ⟨S_, .f32⟩
  | .hbm, ⟨60, _⟩ => ⟨S384, .f32⟩
  | .hbm, ⟨61, _⟩ => ⟨S_, .f32⟩
  | .hbm, ⟨62, _⟩ => ⟨S_, .f32⟩
  | .hbm, ⟨63, _⟩ => ⟨S384, .f32⟩
  | .hbm, ⟨64, _⟩ => ⟨S384, .f32⟩
  | .hbm, ⟨65, _⟩ => ⟨S384, .f32⟩
  | .hbm, ⟨66, _⟩ => ⟨S384, .i32⟩
  | .hbm, ⟨67, _⟩ => ⟨S_, .i32⟩
  | .hbm, ⟨68, _⟩ => ⟨S_, .i32⟩
  | .hbm, ⟨69, _⟩ => ⟨S_, .f32⟩
  | .hbm, ⟨70, _⟩ => ⟨S_, .f32⟩
  | .hbm, ⟨71, _⟩ => ⟨S_, .i1⟩
  | .hbm, ⟨72, _⟩ => ⟨S384, .f32⟩
  | .hbm, ⟨73, _⟩ => ⟨S384, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S384x128, .f32⟩
  | .hbm, ⟨82, _⟩ => ⟨S384x128, .f32⟩
  | .hbm, ⟨83, _⟩ => ⟨S384x128, .f32⟩
  | .hbm, ⟨84, _⟩ => ⟨S_, .f32⟩
  | .hbm, ⟨85, _⟩ => ⟨S_, .f32⟩
  | .hbm, ⟨86, _⟩ => ⟨S_, .f32⟩
  | .hbm, ⟨87, _⟩ => ⟨S_, .f32⟩
  | .hbm, ⟨88, _⟩ => ⟨S_, .f32⟩
  | .hbm, ⟨89, _⟩ => ⟨S_, .f32⟩
  | .hbm, ⟨90, _⟩ => ⟨S_, .f32⟩
  | _, _ => ⟨S384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_cst_1 : Ref sig .tc := ⟨.hbm, 19, rfl⟩
abbrev main_v15 : Ref sig .tc := ⟨.hbm, 20, rfl⟩
abbrev main_v16 : Ref sig .tc := ⟨.hbm, 21, rfl⟩
abbrev main_cst_2 : Ref sig .tc := ⟨.hbm, 22, rfl⟩
abbrev main_cst_3 : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_call0_v3 : Ref sig .tc := ⟨.hbm, 27, rfl⟩
abbrev main_call0_v4 : Ref sig .tc := ⟨.hbm, 28, rfl⟩
abbrev main_v17 : Ref sig .tc := ⟨.hbm, 29, rfl⟩
abbrev main_v18 : Ref sig .tc := ⟨.hbm, 30, rfl⟩
abbrev main_call1_cst : Ref sig .tc := ⟨.hbm, 31, rfl⟩
abbrev main_call1_v0 : Ref sig .tc := ⟨.hbm, 32, rfl⟩
abbrev main_call1_v1 : Ref sig .tc := ⟨.hbm, 33, rfl⟩
abbrev main_call1_v2 : Ref sig .tc := ⟨.hbm, 34, rfl⟩
abbrev main_call1_v3 : Ref sig .tc := ⟨.hbm, 35, rfl⟩
abbrev main_call1_v4 : Ref sig .tc := ⟨.hbm, 36, rfl⟩
abbrev main_call1_v5 : Ref sig .tc := ⟨.hbm, 37, rfl⟩
abbrev main_call1_v6 : Ref sig .tc := ⟨.hbm, 38, rfl⟩
abbrev main_call1_v7 : Ref sig .tc := ⟨.hbm, 39, rfl⟩
abbrev main_call1_v8 : Ref sig .tc := ⟨.hbm, 40, rfl⟩
abbrev main_call1_v9 : Ref sig .tc := ⟨.hbm, 41, rfl⟩
abbrev main_call1_v10 : Ref sig .tc := ⟨.hbm, 42, rfl⟩
abbrev main_call1_v11 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_cst_4 : Ref sig .tc := ⟨.hbm, 50, rfl⟩
abbrev main_v25 : Ref sig .tc := ⟨.hbm, 51, rfl⟩
abbrev main_cst_5 : Ref sig .tc := ⟨.hbm, 52, rfl⟩
abbrev main_v26 : Ref sig .tc := ⟨.hbm, 53, rfl⟩
abbrev main_v27 : Ref sig .tc := ⟨.hbm, 54, rfl⟩
abbrev main_cst_6 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_cst_7 : Ref sig .tc := ⟨.hbm, 59, rfl⟩
abbrev main_v31 : Ref sig .tc := ⟨.hbm, 60, rfl⟩
abbrev main_cst_8 : Ref sig .tc := ⟨.hbm, 61, rfl⟩
abbrev main_call2_v0 : Ref sig .tc := ⟨.hbm, 62, rfl⟩
abbrev main_call2_v1 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_c : Ref sig .tc := ⟨.hbm, 67, rfl⟩
abbrev main_v35 : Ref sig .tc := ⟨.hbm, 68, rfl⟩
abbrev main_v36 : Ref sig .tc := ⟨.hbm, 69, rfl⟩
abbrev main_cst_9 : Ref sig .tc := ⟨.hbm, 70, rfl⟩
abbrev main_v37 : Ref sig .tc := ⟨.hbm, 71, rfl⟩
abbrev main_v38 : Ref sig .tc := ⟨.hbm, 72, rfl⟩
abbrev main_v39 : Ref sig .tc := ⟨.hbm, 73, rfl⟩
abbrev main_cst_10 : Ref sig .tc := ⟨.hbm, 74, rfl⟩
abbrev main_v40 : Ref sig .tc := ⟨.hbm, 75, rfl⟩
abbrev main_cst_11 : Ref sig .tc := ⟨.hbm, 76, rfl⟩
abbrev main_v41 : Ref sig .tc := ⟨.hbm, 77, rfl⟩
abbrev main_v42 : Ref sig .tc := ⟨.hbm, 78, rfl⟩
abbrev main_cst_12 : Ref sig .tc := ⟨.hbm, 79, rfl⟩
abbrev main_v43 : Ref sig .tc := ⟨.hbm, 80, rfl⟩
abbrev main_v44 : Ref sig .tc := ⟨.hbm, 81, rfl⟩
abbrev main_v45 : Ref sig .tc := ⟨.hbm, 82, rfl⟩
abbrev main_v46 : Ref sig .tc := ⟨.hbm, 83, rfl⟩
abbrev main_cst_13 : Ref sig .tc := ⟨.hbm, 84, rfl⟩
abbrev main_v47 : Ref sig .tc := ⟨.hbm, 85, rfl⟩
abbrev main_cst_14 : Ref sig .tc := ⟨.hbm, 86, rfl⟩
abbrev main_v48 : Ref sig .tc := ⟨.hbm, 87, rfl⟩
abbrev main_cst_15 : Ref sig .tc := ⟨.hbm, 88, rfl⟩
abbrev main_v49 : Ref sig .tc := ⟨.hbm, 89, rfl⟩
abbrev main_v50 : Ref sig .tc := ⟨.hbm, 90, rfl⟩

abbrev nD : Nat := 1
abbrev τ : Topo := Topo.v7x

variable {F : FTy → Type} [FloatOps F]

class Facts₀ : Prop where
  transposes_S384x128_S128x384_1_0 : S384x128.Transposes [1, 0] S128x384
  transposes_S384x80_S80x384_1_0 : S384x80.Transposes [1, 0] S80x384
  bcast_S_S384x384 : S_.BroadcastsInDim S384x384 (![] : Fin 0 → Fin S384x384.rank)
  bcast_S384x384_S384x384x1_0_1 : S384x384.BroadcastsInDim S384x384x1 (![0, 1] : Fin 2 → Fin S384x384x1.rank)
  bcast_S384x384_S384x1x384_0_2 : S384x384.BroadcastsInDim S384x1x384 (![0, 2] : Fin 2 → Fin S384x1x384.rank)
  bcast_S384x384x1_S384x384x384_0_1_2 : S384x384x1.BroadcastsInDim S384x384x384 (![0, 1, 2] : Fin 3 → Fin S384x384x384.rank)
  bcast_S384x1x384_S384x384x384_0_1_2 : S384x1x384.BroadcastsInDim S384x384x384 (![0, 1, 2] : Fin 3 → Fin S384x384x384.rank)
  bcast_S_S384x384x384 : S_.BroadcastsInDim S384x384x384 (![] : Fin 0 → Fin S384x384x384.rank)
  reducesTo_S384x384_S384_d1 : S384x384.ReducesTo [1] S384
  h_S_ : 0 < S_.numel
  bcast_S_S384 : S_.BroadcastsInDim S384 (![] : Fin 0 → Fin S384.rank)
  reducesTo_S384x384x384_S384_d1_2 : S384x384x384.ReducesTo [1, 2] S384
  natLt_1_32 : 1 < 32
  reducesTo_S384_S_d0 : S384.ReducesTo [0] S_
  reducesTo_S384x128_S_d0_1 : S384x128.ReducesTo [0, 1] S_
  dot_S384x128_S128x384_S384x384_1_0_0_1_n_n_wf : DotDims.WF S384x128 S128x384 S384x384 [1] [0] [0] [1] [] []
  dot_S384x80_S80x384_S384x384_1_0_0_1_n_n_wf : DotDims.WF S384x80 S80x384 S384x384 [1] [0] [0] [1] [] []

variable [Facts₀]

def dot_S384x128_S128x384_S384x384_1_0_0_1_n_n : DotDims S384x128 S128x384 S384x384 where
  lhsContracting := [1]
  rhsContracting := [0]
  lhsNonContracting := [0]
  rhsNonContracting := [1]
  lhsBatch := []
  rhsBatch := []
  wf := dot_S384x128_S128x384_S384x384_1_0_0_1_n_n_wf
def dot_S384x80_S80x384_S384x384_1_0_0_1_n_n : DotDims S384x80 S80x384 S384x384 where
  lhsContracting := [1]
  rhsContracting := [0]
  lhsNonContracting := [0]
  rhsNonContracting := [1]
  lhsBatch := []
  rhsBatch := []
  wf := dot_S384x80_S80x384_S384x384_1_0_0_1_n_n_wf

class Facts : Prop extends Facts₀ where

variable [Facts]
-- ==== Proof.LibPairSum.lean ====
/-
  A rank-2 tile `[a, b]` set against itself along a new axis, and what is summed over the pair of axes.
  The tile's column view `[a, b, 1]` and its row view `[a, 1, b]` read the tile at `(p, i)` and at `(p, k)`; broadcast to
  the cube `[a, b, c]` (or `[a, c, b]`) they read, at `(p, i, k)`, the view's entry with the unit coordinate `0`. The
  host's sum of a cube over its two trailing axes is, in row `r`, the initial value plus the double sum over `(i, k)`
  of the cube at `(r, i, k)`: the indices that drop to `r` are exactly the `(r, i, k)`. Last, over reals, the sum of
  the complements `1 - r k` of `n` numbers is `n` minus their sum, also when read in the extended reals.
-/
import Idealize.ShloMosaic.Lib.Pipeline.Value
import Idealize.ShloMosaic.Lib.ValueIdx
import Idealize.ShloMosaic.PureOps.Ideal.Laws

noncomputable section

namespace Cert.LibPairSum

open Idealize.ShloMosaic Idealize.ShloMosaic.ValueIdx

variable {α : Type}

/-- A tile `[a, b]` cast to its column view `[a, b, 1]` reads, at `(p, i, u)`, the tile at `(p, i)`: both sit at row-major
    position `p * b + i`, the unit coordinate `u` being `0`. -/
theorem shapeCast_ab_ab1_apply {a b : ℕ} (x : (⟨2, ![a, b]⟩ : Shape).Idx → α)
    (h : (⟨2, ![a, b]⟩ : Shape).ShapeCasts ⟨3, ![a, b, 1]⟩) (p : Fin a) (i : Fin b) (u : Fin 1) :
    shapeCast ⟨3, ![a, b, 1]⟩ x h (ix3 p i u) = x (ix2 p i) :=
  shapeCast_apply x h _ _ (by
    have hu : u.val = 0 := by omega
    rw [Shape.rowMajor_val_three, Shape.rowMajor_val_two]
    show p.val * b + i.val = (p.val * b + i.val) * 1 + u.val
    rw [hu, Nat.mul_one, Nat.add_zero])

/-- A tile `[a, b]` cast to its row view `[a, 1, b]` reads, at `(p, u, k)`, the tile at `(p, k)`. -/
theorem shapeCast_ab_a1b_apply {a b : ℕ} (x : (⟨2, ![a, b]⟩ : Shape).Idx → α)
    (h : (⟨2, ![a, b]⟩ : Shape).ShapeCasts ⟨3, ![a, 1, b]⟩) (p : Fin a) (u : Fin 1) (k : Fin b) :
    shapeCast ⟨3, ![a, 1, b]⟩ x h (ix3 p u k) = x (ix2 p k) :=
  shapeCast_apply x h _ _ (by
    have hu : u.val = 0 := by omega
    rw [Shape.rowMajor_val_three, Shape.rowMajor_val_two]
    show p.val * b + k.val = (p.val * 1 + u.val) * b + k.val
    rw [hu, Nat.mul_one, Nat.add_zero])

/-- A column view `[a, b, 1]` broadcast along its unit axis to `[a, b, c]` reads, at `(p, i, k)`, the view at `(p, i, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (p : Fin a) (i : Fin b) (k : Fin c) :
    broadcastTo ⟨3, ![a, b, c]⟩ v h (ix3 p i k) = v (ix3 p i (0 : Fin 1)) := by
  refine broadcastTo_apply v h (ix3 p i k) (ix3 p i (0 : Fin 1)) fun ax => ?_
  match ax with
  | ⟨0, _⟩ =>
    show p.val = if a = 1 then 0 else p.val
    split
    · have := p.isLt; omega
    · rfl
  | ⟨1, _⟩ =>
    show i.val = if b = 1 then 0 else i.val
    split
    · have := i.isLt; omega
    · rfl
  | ⟨2, _⟩ => rfl

/-- A row view `[a, 1, b]` broadcast along its unit axis to `[a, c, b]` reads, at `(p, i, k)`, the view at `(p, 0, k)`. -/
theorem broadcastTo_a1b_acb_apply {a b c : ℕ} (v : (⟨3, ![a, 1, b]⟩ : Shape).Idx → α)
    (h : (⟨3, ![a, 1, b]⟩ : Shape).Broadcasts ⟨3, ![a, c, b]⟩) (p : Fin a) (i : Fin c) (k : Fin b) :
    broadcastTo ⟨3, ![a, c, b]⟩ v h (ix3 p i k) = v (ix3 p (0 : Fin 1) k) := by
  refine broadcastTo_apply v h (ix3 p i k) (ix3 p (0 : Fin 1) k) fun ax => ?_
  match ax with
  | ⟨0, _⟩ =>
    show p.val = if a = 1 then 0 else p.val
    split
    · have := p.isLt; omega
    · rfl
  | ⟨1, _⟩ => rfl
  | ⟨2, _⟩ =>
    show k.val = if b = 1 then 0 else k.val
    split
    · have := k.isLt; omega
    · rfl

/-- The host's sum of a cube `[a, b, c]` over its two trailing axes, in row `r`: the initial value plus the double sum
    over `(i, k)` of the cube at `(r, i, k)`. An index drops to `r` exactly when its first coordinate is `r`, and such
    an index is `(r, i, k)` for its own two trailing coordinates. -/
theorem hostReduceAdd_trailing_pair {a b c : ℕ} (h' : (⟨3, ![a, b, c]⟩ : Shape).ReducesTo [1, 2] ⟨1, ![a]⟩)
    (g : (⟨3, ![a, b, c]⟩ : Shape).Idx → EReal) (init : EReal) (r : Fin a) :
    Ideal.hostReduceAdd h' g init (ix1 r) = init + ∑ i : Fin b, ∑ k : Fin c, g (ix3 r i k) := by
  unfold Ideal.hostReduceAdd
  refine congrArg (init + ·) ?_
  rw [← Finset.sum_product' Finset.univ Finset.univ (fun i k => g (ix3 r i k))]
  have hdrop : ∀ x : (⟨3, ![a, b, c]⟩ : Shape).Idx, (h'.drop x = ix1 r) ↔ (x 0).val = r.val := fun x => by
    constructor
    · intro e
      have := congrArg (fun y => (y 0).val) e
      exact (Shape.ReducesTo.drop_apply_val_of_eq h' x 0 0 (by exact Nat.zero_lt_one) rfl).symm.trans this
    · intro e
      funext d
      match d with
      | ⟨0, _⟩ => exact Fin.ext ((Shape.ReducesTo.drop_apply_val_of_eq h' x 0 0 (by exact Nat.zero_lt_one) rfl).trans e)
  refine Finset.sum_nbij' (fun x => ((x 1 : Fin b), (x 2 : Fin c))) (fun q => ix3 r q.1 q.2) ?_ ?_ ?_ ?_ ?_
  · intro x _; exact Finset.mem_product.mpr ⟨Finset.mem_univ _, Finset.mem_univ _⟩
  · intro q _
    rw [Finset.mem_filter]
    exact ⟨Finset.mem_univ _, (hdrop _).mpr rfl⟩
  · intro x hx
    have e : (x 0).val = r.val := (hdrop x).mp (Finset.mem_filter.mp hx).2
    funext d
    match d with
    | ⟨0, _⟩ => exact Fin.ext e.symm
    | ⟨1, _⟩ => rfl
    | ⟨2, _⟩ => rfl
  · intro q _; rfl
  · intro x hx
    have e : (x 0).val = r.val := (hdrop x).mp (Finset.mem_filter.mp hx).2
    refine congrArg g (funext fun d => ?_)
    match d with
    | ⟨0, _⟩ => exact Fin.ext e
    | ⟨1, _⟩ => rfl
    | ⟨2, _⟩ => rfl

/-- A finite sum of reals, read in the extended reals, is the sum of the readings. -/
theorem coe_finset_sum {ι : Type} (s : Finset ι) (f : ι → ℝ) :
    ((∑ k ∈ s, f k : ℝ) : EReal) = ∑ k ∈ s, (f k : EReal) := by
  classical
  refine Finset.induction_on s (by simp) ?_
  intro x t hx ih
  rw [Finset.sum_insert hx, Finset.sum_insert hx, EReal.coe_add, ih]

/-- The complements `1 - r k` of `n` reals sum to `n` minus the sum of the `r k`, in the extended reals as in the reals
    (nothing here is infinite, so the subtraction is the reals'). -/
theorem sum_one_sub_coe {n : ℕ} (r : Fin n → ℝ) :
    ∑ k : Fin n, ((1 : EReal) - (r k : EReal)) = ((n : ℝ) : EReal) - ∑ k : Fin n, (r k : EReal) := by
  have h1 : ∀ k, (1 : EReal) - (r k : EReal) = ((1 - r k : ℝ) : EReal) := fun k => by
    rw [EReal.coe_sub, EReal.coe_one]
  simp only [h1]
  rw [← coe_finset_sum, ← coe_finset_sum, ← EReal.coe_sub]
  refine congrArg _ ?_
  rw [Finset.sum_sub_distrib]
  simp

end Cert.LibPairSum

end
-- ==== Proof.PairLoss.lean ====
/-
  The quantity both programs compute in each row, stated once over the extended reals.

  For a row `r` of a square array `A` (inner products) and of a 0/1 array `P` (which columns are similar to `r`), the
  pair loss is the double sum over columns `(i, k)` of

      softplus (-(clip (A r i - A r k - 1/2)))  *  (P r i * (1 - P r k)),

  the margin clipped to `[-100, 50]`, and `softplus n = max n 0 + log (1 + exp (-|n|))`, with `|n| = max n (-n)`. Both
  programs guard the softplus by a test `x ≠ x` of its argument, which no extended real passes: the guarded branch is
  never taken (`select_ne_self`). The number of dissimilar columns of a row is counted in two ways, as the sum of the
  complements `1 - P r k` and as `384` minus the number of similar ones; for a 0/1 array — for any array of reals —
  these agree (`count_complement`).
-/
import Idealize.ShloMosaic.PureOps.Ideal.Laws
import Idealize.ShloMosaic.Lib.ValueIdx
import proofs.«164194_j48189533061230_1_alg».proof.Proof.LibPairSum

noncomputable section

namespace Cert.PairLoss

open Idealize.ShloMosaic Idealize.ShloMosaic.ValueIdx

/-- The square arrays' shape and a row vector's. -/
abbrev Sq : Shape := ⟨2, ![384, 384]⟩
abbrev Row : Shape := ⟨1, ![384]⟩

/-- `1.0` denotes `1`. -/
theorem ofBits_one : Ideal.ofBits .f32 0x3F800000#32 = 1 := by
  simp [Ideal.ofBits, Ideal.ieee, -EReal.coe_mul]; norm_num

/-- `384.0` denotes the real `384`. -/
theorem ofBits_384 : Ideal.ofBits .f32 0x43C00000#32 = ((384 : ℝ) : EReal) := by
  simp [Ideal.ofBits, Ideal.ieee, -EReal.coe_mul]; norm_num

/-- No extended real differs from itself, so a choice guarded by `x ≠ x` takes its second value; the ordered and the
    unordered spelling of the test are one comparison here. -/
theorem select_ne_self {α : Type} (x : EReal) (u v : α) : Scalar.select (Ideal.cmp .une x x) u v = v := by
  simp [Ideal.cmp, Scalar.select]

theorem select_one_self {α : Type} (x : EReal) (u v : α) : Scalar.select (Ideal.cmp .one x x) u v = v := by
  simp [Ideal.cmp, Scalar.select]

/-- The negated margin of columns with inner products `a` and `b`: `a - b - 1/2` clipped to `[-100, 50]`, negated. The
    three constants stay as the words both programs spell. -/
def negMargin (a b : EReal) : EReal :=
  -(min (Ideal.ofBits .f32 0x42480000#32) (max (Ideal.ofBits .f32 0xC2C80000#32) (a - b - Ideal.ofBits .f32 0x3F000000#32)))

/-- `softplus n = max n 0 + log (1 + exp (-|n|))`. -/
def softplus (n : EReal) : EReal := max n 0 + Ideal.log1p (Ideal.exp (-(max n (-n))))

/-- The pair loss of row `r`. -/
def pairLoss (A P : Sq.Idx → EReal) : Row.Idx → EReal := fun r =>
  ∑ i : Fin 384, ∑ k : Fin 384,
    softplus (negMargin (A (ix2 (r 0) i)) (A (ix2 (r 0) k))) * (P (ix2 (r 0) i) * (1 - P (ix2 (r 0) k)))

/-- Counting a row's dissimilar columns: `384` minus the sum of reals `p k` is the sum of their complements. -/
theorem count_complement (p : Fin 384 → EReal) (hp : ∀ k, ∃ ρ : ℝ, p k = (ρ : EReal)) :
    ((384 : ℝ) : EReal) - (0 + ∑ k : Fin 384, p k) = 0 + ∑ k : Fin 384, ((1 : EReal) - p k) := by
  choose ρ hρ using hp
  simp only [hρ, zero_add]
  rw [Cert.LibPairSum.sum_one_sub_coe ρ]
  norm_num

end Cert.PairLoss

end
-- ==== Proof.LibKeepdims.lean ====
/-
  Column forms of a kept unit axis, read at an index: a vector `[a]` viewed as the column `[a, 1]` reads its entry at
  the row, and a column `[a, 1]` broadcast along its unit axis to `[a, b]` reads, at `(p, c)`, the column's entry
  in row `p`. Together with the row forms (`[a]` as `[1, a]`, and `[1, b]` over `[a, b]`) these read a sum that
  keeps its reduced axis and is then broadcast against a two-dimensional tile.
-/
import Idealize.ShloMosaic.Lib.Pipeline.Value
import Idealize.ShloMosaic.Lib.ValueIdx

noncomputable section

namespace Cert.LibKeepdims

open Idealize.ShloMosaic Idealize.ShloMosaic.ValueIdx

variable {α : Type}

/-- A vector `[a]` cast to the column `[a, 1]` reads, at `(i, u)`, the vector at `i`: both have row-major position `i`,
    the unit coordinate `u` being `0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry in row `p`: the row coordinate is
    kept (or is `0` already when `a = 1`), the unit axis reads its only coordinate. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibKeepdims

end
-- ==== Proof.KernelRows.lean ====
/-
  The kernel's region, read: the array its 48 grid points leave is the pair loss of the two arrays it is launched on,
  as a column.

  Point `t` loads rows `8t … 8t+7` of the inner products and of the similarity mask, forms for each of its rows `p` the
  tile `softplus (-(clip (v p i - v p k - 1/2))) * (pos p i * (1 - pos p k))` over `(i, k)`, sums it over `k` and then
  over `i`, and stores the eight sums as an `[8, 1]` column, which the pipeline writes back to rows `8t … 8t+7` of the
  `[384, 1]` result. Row `p` of the blocks is row `8t + p` of the arrays, so each stored sum is the pair loss of that
  row; the 48 blocks tile the result.
-/
import proofs.«164194_j48189533061230_1_alg».proof.Proof.Gen.KernelIdeal.Frame
import proofs.«164194_j48189533061230_1_alg».proof.Proof.PairLoss
import proofs.«164194_j48189533061230_1_alg».proof.Proof.LibKeepdims
import Idealize.ShloMosaic.Lib.Pipeline.Value
import Idealize.ShloMosaic.Lib.ValueIdx
import Idealize.ShloMosaic.PureOps.Ideal.Laws

noncomputable section

namespace Cert.KernelIdeal.Rows

open Cert.KernelIdeal Cert.KernelIdeal.Gen Cert.PairLoss
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- A cube `[8, 384, 384]` summed over its last axis and then over its middle axis is, in row `p`, the double sum over
    `(i, k)` of the cube at `(p, i, k)`. -/
theorem lanes_sum (src : FVec Ideal S8x384x384 .f32) (p : Fin 8) :
    multiReduction .add [1] S8 (multiReduction .add [2] S8x384 src 0x00000000#32 reduces_S8x384x384_S8x384 (.inl rfl) rfl)
        0x00000000#32 reduces_S8x384_S8 (.inl rfl) rfl (ix1 p)
      = ∑ i : Fin 384, ∑ k : Fin 384, src (ix3 p i k) := by
  refine (Ideal.multiReduction_add_single _ 0x00000000#32 reduces_S8x384_S8 (.inl rfl) rfl (ix1 p)).trans ?_
  refine Finset.sum_congr rfl fun (i : Fin 384) _ => ?_
  refine (Ideal.multiReduction_add_single src 0x00000000#32 reduces_S8x384x384_S8x384 (.inl rfl) rfl _).trans ?_
  refine Finset.sum_congr rfl fun (k : Fin 384) _ => ?_
  exact congrArg src (funext fun a => Fin.ext (by match a with | ⟨0, _⟩ => rfl | ⟨1, _⟩ => rfl | ⟨2, _⟩ => rfl))

/-- What the body stores in row `p` of its `[8, 1]` column, from the two loaded blocks: the pair loss's double sum over
    row `p` of the blocks. -/
theorem payload_apply (x0 x1 : FVec Ideal S8x384 .f32) (p : Fin 8) (u : Fin 1) :
    k0_pay1 (F := Ideal) x0 x1 (ix2 p u)
      = ∑ i : Fin 384, ∑ k : Fin 384,
          softplus (negMargin (x0 (ix2 p i)) (x0 (ix2 p k))) * (x1 (ix2 p i) * (1 - x1 (ix2 p k))) := by
  have hs : ∀ b : BitVec 32, Scalar.ofBits (F := Ideal) .f32 b = Ideal.ofBits .f32 b := fun _ => rfl
  unfold k0_pay1
  dsimp only
  refine (Cert.LibKeepdims.shapeCast_a_a1_apply _ shapeCasts_S8_S8x1 p u).trans ?_
  refine (lanes_sum _ p).trans ?_
  refine Finset.sum_congr rfl fun i _ => Finset.sum_congr rfl fun k _ => ?_
  simp only [mulf_apply, addf_apply, subf_apply, maximumf_apply, minimumf_apply, select_apply, cmpf_apply, broadcast_apply,
    absf, exp, log1p, shapeCast_self, Cert.LibPairSum.broadcastTo_ab1_abc_apply, Cert.LibPairSum.shapeCast_ab_ab1_apply,
    Cert.LibPairSum.broadcastTo_a1b_acb_apply, Cert.LibPairSum.shapeCast_ab_a1b_apply]
  simp only [hs, Ideal.absf_def, Ideal.exp_def, Ideal.log1p_def, Ideal.cmpf_def, Ideal.ofBits_zero_f32, ofBits_one,
    zero_sub, sub_zero, add_zero, select_one_self, softplus, negMargin]

/-! ## The blocks are rows of the arrays -/

/-- The printed index maps, decided over the grid: at point `t` every window's block index is `(t, 0)`. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- The two arrays the region is launched on, as it finds them, and their blocks at point `t`, at their literal types. -/
abbrev ipArr (c : Dev nD) : FVec Ideal S384x384 .f32 := V m c main_v2
abbrev posArr (c : Dev nD) : FVec Ideal S384x384 .f32 := V m c main_v7
abbrev ipBlk (c : Dev nD) (t : Fin cfg0.N) : FVec Ideal S8x384 .f32 := iblk m c 0 t
abbrev posBlk (c : Dev nD) (t : Fin cfg0.N) : FVec Ideal S8x384 .f32 := iblk m c 1 t

/-- Row `p` of point `t`'s block of the inner products is row `8t + p` of the array. -/
theorem ipBlk_apply (c : Dev nD) (t : Fin cfg0.N) (p : Fin 8) (i : Fin 384) (q : Fin 384) (hq : q.val = 8 * t.val + p.val) :
    ipBlk m c t (ix2 p i) = ipArr m c (ix2 q i) := by
  obtain ⟨e0, e1, -⟩ := idx_facts t
  show V m c main_v2 (((cfg0.win 0).blk t).view.emb (ix2 p i)) = V m c main_v2 (ix2 q i)
  refine congrArg (V m c main_v2) (funext fun a => Fin.ext ?_)
  match a with
  | ⟨0, _⟩ => show win0_0.index t (0 : Fin 2) * 8 + 1 * p.val = q.val; omega
  | ⟨1, _⟩ => show win0_0.index t (1 : Fin 2) * 384 + 1 * i.val = i.val; omega

/-- The same for the similarity mask. -/
theorem posBlk_apply (c : Dev nD) (t : Fin cfg0.N) (p : Fin 8) (i : Fin 384) (q : Fin 384) (hq : q.val = 8 * t.val + p.val) :
    posBlk m c t (ix2 p i) = posArr m c (ix2 q i) := by
  obtain ⟨-, -, e2, e3, -⟩ := idx_facts t
  show V m c main_v7 (((cfg0.win 1).blk t).view.emb (ix2 p i)) = V m c main_v7 (ix2 q i)
  refine congrArg (V m c main_v7) (funext fun a => Fin.ext ?_)
  match a with
  | ⟨0, _⟩ => show win0_1.index t (0 : Fin 2) * 8 + 1 * p.val = q.val; omega
  | ⟨1, _⟩ => show win0_1.index t (1 : Fin 2) * 384 + 1 * i.val = i.val; omega

/-! ## The result array -/

/-- The column `[384, 1]` whose entry in row `r` is the pair loss of row `r` of the two arrays. -/
def column (c : Dev nD) : FVec Ideal S384x1 .f32 :=
  shapeCast S384x1 (pairLoss (ipArr m c) (posArr m c)) (by decide)

/-- What point `t` writes back is block `t` of that column: row `p` of the stored column is the pair loss over row `p`
    of the blocks, which is row `8t + p` of the arrays. -/
theorem flushed_eq (c : Dev nD) (t : Fin cfg0.N) :
    (dats m 0 c).flushed 2 t = ((cfg0.win 2).blk t).view.read (Elt Ideal) (column m c) := by
  show (cfg0.win 2).cut (grid0.coords t) ((dats m 0 c).after 2 t) = _
  rw [after0_2]
  unfold out0_2
  rw [View.canon_unit_zero hz]
  simp only [View.ld_unit_zero (S := S8x384) hz]
  obtain ⟨-, -, -, -, e4, e5⟩ := idx_facts t
  refine funext fun (j : S8x1.Idx) => ?_
  obtain ⟨p, u, rfl⟩ : ∃ (p : Fin 8) (u : Fin 1), j = ix2 p u := ⟨j 0, j 1, eq_ix2 j⟩
  have hN : cfg0.N = 48 := N_0
  have hq : 8 * t.val + p.val < 384 := by have := t.isLt; have := p.isLt; omega
  show k0_pay1 (F := Ideal) (ipBlk m c t) (posBlk m c t) (ix2 p u) = column m c (((cfg0.win 2).blk t).view.emb (ix2 p u))
  have he : ((cfg0.win 2).blk t).view.emb (ix2 p u) = ix2 (⟨8 * t.val + p.val, hq⟩ : Fin 384) (0 : Fin 1) := by
    funext a; apply Fin.ext
    match a with
    | ⟨0, _⟩ => show win0_2.index t (0 : Fin 2) * 8 + 1 * p.val = 8 * t.val + p.val; omega
    | ⟨1, _⟩ => show win0_2.index t (1 : Fin 2) * 1 + 1 * u.val = 0; have := u.isLt; omega
  rw [he, payload_apply (ipBlk m c t) (posBlk m c t) p u]
  unfold column
  rw [Cert.LibKeepdims.shapeCast_a_a1_apply]
  unfold pairLoss
  refine Finset.sum_congr rfl fun i _ => Finset.sum_congr rfl fun k _ => ?_
  rw [ipBlk_apply m c t p i ⟨8 * t.val + p.val, hq⟩ rfl, ipBlk_apply m c t p k ⟨8 * t.val + p.val, hq⟩ rfl,
    posBlk_apply m c t p i ⟨8 * t.val + p.val, hq⟩ rfl, posBlk_apply m c t p k ⟨8 * t.val + p.val, hq⟩ rfl]

/-- An index of the result is in point `t`'s block iff each coordinate is in the block's range on its axis. -/
theorem mem_blk (t : Fin cfg0.N) (i : S384x1.Idx) :
    i ∈ ((cfg0.win 2).blk t).view.set ↔ ∀ a : Fin 2, win0_2.index t a * S8x1.size a ≤ (i a).val ∧ (i a).val < win0_2.index t a * S8x1.size a + S8x1.size a := by
  show i ∈ ((View.whole main_v14).slice (win0_2.rect t)).set ↔ _
  rw [View.set_slice_whole, Rect.mem_set_unit]
  exact Iff.rfl

/-- The 48 blocks of eight rows tile the 384 rows (row `r` is in block `r / 8`), so after the region the result array is
    the column of pair losses. -/
theorem final (c : Dev nD) : (dats m 0 c).arrAt 2 cfg0.N = column m c :=
  (dats m 0 c).arrAt_eq_of_cover 2 (column m c) (fun t _ => flushed_eq m c t) fun i => by
    have hN : cfg0.N = 48 := N_0
    have hi0 : (i 0).val < 384 := (i 0).isLt
    have hi1 : (i 1).val < 1 := (i 1).isLt
    obtain ⟨t, ht⟩ : ∃ t : Fin cfg0.N, t.val = (i 0).val / 8 := ⟨⟨(i 0).val / 8, by omega⟩, rfl⟩
    obtain ⟨-, -, -, -, e4, e5⟩ := idx_facts t
    refine ⟨t, flush0_2 t, ?_⟩
    rw [mem_blk]
    intro a
    match a with
    | ⟨0, _⟩ =>
      show win0_2.index t (0 : Fin 2) * 8 ≤ (i 0).val ∧ (i 0).val < win0_2.index t (0 : Fin 2) * 8 + 8
      omega
    | ⟨1, _⟩ =>
      show win0_2.index t (1 : Fin 2) * 1 ≤ (i 1).val ∧ (i 1).val < win0_2.index t (1 : Fin 2) * 1 + 1
      omega

end Cert.KernelIdeal.Rows

end
-- ==== Proof.Tail.lean ====
/-
  The last stretch both programs share, as one function: from the vector of row sums, the vector of pair counts
  (similar columns times dissimilar columns, per row), the mask of the rows that have a pair, and the codes `u`, to the
  loss. A row's loss is its row sum divided by its pair count (by `1` where it has none); the first term is the mean of
  the valid rows' losses (`0` if no row is valid), the second `0.1` times the mean of `(u - sign u)^2`. Neither proof
  opens it: the two programs apply it to equal arguments.
-/
import Idealize.ShloMosaic.PureOps

noncomputable section

namespace Cert.Tail

open Idealize.ShloMosaic

abbrev S_ : Shape := ⟨0, ![]⟩
abbrev S384 : Shape := ⟨1, ![384]⟩
abbrev S384x128 : Shape := ⟨2, ![384, 128]⟩

variable {F : FTy → Type} [FloatOps F]

/-- The number of valid rows, as a float. -/
def validCount (hr : S384.ReducesTo [0] S_) (hS : 0 < S_.numel) (hlt : 1 < 32) (rv : IVec S384 1) : FVec F S_ .f32 :=
  sitofp .f32 (Host.reduce IntOp.addi (extui 32 rv hlt) (constantI S_ 32 0#32) hr hS)

/-- The loss, from the row sums `rs`, the pair counts `pc`, the valid-row mask `rv` and the codes `u`. -/
def loss (hb : S_.BroadcastsInDim S384 (![] : Fin 0 → Fin S384.rank)) (hr : S384.ReducesTo [0] S_)
    (hr2 : S384x128.ReducesTo [0, 1] S_) (hS : 0 < S_.numel) (hlt : 1 < 32)
    (rs pc : FVec F S384 .f32) (rv : IVec S384 1) (u : FVec F S384x128 .f32) : FVec F S_ .f32 :=
  addf
    (select (cmpf .ogt (validCount (F := F) hr hS hlt rv) (constant S_ .f32 0x00000000#32))
      (Host.divf
        (Host.reduceAdd
          (mulf (Host.divf rs (select rv pc (broadcastInDim S384 ![] hb (id (constant S_ .f32 0x3F800000#32))))) (uitofp .f32 rv))
          (constant S_ .f32 0x00000000#32) hr hS)
        (maximumf (validCount (F := F) hr hS hlt rv) (constant S_ .f32 0x3F800000#32)))
      (constant S_ .f32 0x00000000#32))
    (mulf (constant S_ .f32 0x3DCCCCCD#32)
      (Host.divf
        (Host.reduceAdd (mulf (subf u (Host.sign u)) (subf u (Host.sign u))) (constant S_ .f32 0x00000000#32) hr2 hS)
        (constant S_ .f32 0x47400000#32)))

end Cert.Tail

end
-- ==== Proof.KernelTail.lean ====
/-
  The kernel's program after its region, read: the shared last stretch applied to the region's result — the column of
  pair losses, reshaped to a vector — and to the pair counts and the valid-row mask the program computed before the
  region. The lines after the region read the result array as the region left it and every other buffer as it was when
  the region was entered.
-/
import proofs.«164194_j48189533061230_1_alg».proof.Proof.KernelRows
import proofs.«164194_j48189533061230_1_alg».proof.Proof.Tail
import Idealize.ShloMosaic.Lib.StableHlo.Run

noncomputable section

namespace Cert.KernelIdeal.After

open Cert.KernelIdeal Cert.KernelIdeal.Gen Cert.KernelIdeal.Rows Cert.PairLoss
open Idealize.ShloMosaic Idealize.ShloMosaic.TcCoe Idealize.ShloMosaic.ValueIdx Idealize.SL.Sem Idealize.ShloMosaic.StableHlo
open Idealize.ShloMosaic.Pipeline (Dat)

section AnyFamily

variable {F : FTy → Type} [FloatOps F]
variable (m : (ℓ : Loc nD τ sig) → Buf (Elt F) ℓ)

set_option maxHeartbeats 4000000 in
/-- The result buffer after the lines that follow the region, at any float family: those lines are the shared last
    stretch, operation for operation, of the result array reshaped and of three buffers from before the region. -/
theorem tail_read (c : Dev nD) :
    Pipeline.afterTail₀ cfgs (dats m) 0 (V0 m) [hostOps1, hostOps1_1, hostOps1_2, hostOps1_3, hostOps1_4] c main_v34
      = Cert.Tail.loss (F := F) bcast_S_S384 reducesTo_S384_S_d0 reducesTo_S384x128_S_d0_1 h_S_ natLt_1_32
          (shapeCast S384 ((dats m 0 c).arrAt 2 cfg0.N) shapeCasts_S384x1_S384) (V m c main_v11) (V m c main_v13)
          (V m c main_arg0) := by
  have e14 : Pipeline.withArrays (cfgs 0).spec c (V0 m c) (fun w => (dats m 0 c).arrAt w (cfgs 0).N) (Proc.devRef .tc main_v14)
      = (dats m 0 c).arrAt 2 cfg0.N := Pipeline.withArrays_arr spec0 launch0.win.arr_inj c _ _ 2
  have e11 : Pipeline.withArrays (cfgs 0).spec c (V0 m c) (fun w => (dats m 0 c).arrAt w (cfgs 0).N) (Proc.devRef .tc main_v11)
      = V m c main_v11 :=
    Pipeline.withArrays_of_ne _ c (V0 m c) _ main_v11 (by exact (by decide : ∀ w, Pipeline.arrRef spec0 w ≠ main_v11))
  have e13 : Pipeline.withArrays (cfgs 0).spec c (V0 m c) (fun w => (dats m 0 c).arrAt w (cfgs 0).N) (Proc.devRef .tc main_v13)
      = V m c main_v13 :=
    Pipeline.withArrays_of_ne _ c (V0 m c) _ main_v13 (by exact (by decide : ∀ w, Pipeline.arrRef spec0 w ≠ main_v13))
  have e0 : Pipeline.withArrays (cfgs 0).spec c (V0 m c) (fun w => (dats m 0 c).arrAt w (cfgs 0).N) (Proc.devRef .tc main_arg0)
      = V m c main_arg0 :=
    Pipeline.withArrays_of_ne _ c (V0 m c) _ main_arg0 (by exact (by decide : ∀ w, Pipeline.arrRef spec0 w ≠ main_arg0))
  unfold Pipeline.afterTail₀
  simp only [hostOps1, hostOps1_1, hostOps1_2, hostOps1_3, hostOps1_4, List.flatten_cons, List.flatten_nil, List.append_nil,
    List.cons_append, List.nil_append]
  after_results_simp
  rw [e14, e11, e13, e0]
  rfl

end AnyFamily

variable (m : (ℓ : Loc nD τ sig) → Buf (Elt Ideal) ℓ) (ρ : Dev nD → PrngReg)

/-- Over the extended reals: the region left the column of pair losses, whose reshaping is the vector of pair losses, and
    the codes are as launched. -/
theorem out_eq (c : Dev nD) :
    Pipeline.afterTail₀ cfgs (dats m) 0 (V0 m) [hostOps1, hostOps1_1, hostOps1_2, hostOps1_3, hostOps1_4] c main_v34
      = Cert.Tail.loss (F := Ideal) bcast_S_S384 reducesTo_S384_S_d0 reducesTo_S384x128_S_d0_1 h_S_ natLt_1_32
          (pairLoss (ipArr m c) (posArr m c)) (V m c main_v11) (V m c main_v13) (m ((c.tc : Thread nD τ).loc main_arg0)) := by
  have h : shapeCast S384 (column m c) shapeCasts_S384x1_S384 = pairLoss (ipArr m c) (posArr m c) := by
    unfold column; exact shapeCast_shapeCast _ _ _
  rw [tail_read, final, V_main_arg0, h]

/-- The kernel's run, read: the result buffer at that value, the arguments unchanged. -/
theorem run : θ_run defs (onTc (τ := τ) (main (F := Ideal))) ⟨m, fun _ => 0, ρ⟩ fun r => ∀ c : Dev nD,
      r.2.mem ((c.tc : Thread nD τ).loc main_v34)
        = Cert.Tail.loss (F := Ideal) bcast_S_S384 reducesTo_S384_S_d0 reducesTo_S384x128_S_d0_1 h_S_ natLt_1_32
            (pairLoss (ipArr m c) (posArr m c)) (V m c main_v11) (V m c main_v13) (m ((c.tc : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨((h c).2 main_v34 (Pipeline.mem_restRefs_of main_v34 (by decide) (by decide))).trans (out_eq m c),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c)⟩)
    (run_main m ρ)

end Cert.KernelIdeal.After

end
-- ==== Proof.RefValue.lean ====
/-
  The reference, read: its row sums are the pair loss of the inner products and the similarity mask, and its count of a
  row's dissimilar columns — the sum of the complements `1 - pos` — is `384` minus the count of the similar ones.

  The reference forms the cube `softplus (-(clip (ip r i - ip r k - 1/2))) * (pos r i * (1 - pos r k))` over `(r, i, k)`
  by broadcasting `ip` and `pos` along a new trailing axis and along a new middle axis, and sums it over `(i, k)`;
  read at `(r, i, k)` the two broadcasts give the entries at `(r, i)` and at `(r, k)`, so the cube's entry is the pair
  loss's summand and the sum over the two trailing axes is the double sum.
-/
import proofs.«164194_j48189533061230_1_alg».proof.Proof.RefRead
import proofs.«164194_j48189533061230_1_alg».proof.Proof.PairLoss

noncomputable section

namespace Cert.ReferenceIdeal.RefValue

open Cert.ReferenceIdeal Cert.ReferenceIdeal.Gen Cert.ReferenceIdeal.ReadP Cert.PairLoss
open Idealize.ShloMosaic Idealize.ShloMosaic.ValueIdx

variable (x0 : (⟨S384x128, .f32⟩ : BufTy).Contents (Elt Ideal)) (x1 : (⟨S384x80, .i32⟩ : BufTy).Contents (Elt Ideal))

/-- Where the two broadcasts of a square array read it, at the cube's index `(r, i, k)`: along a new trailing axis
    at `(r, i)`, along a new middle axis at `(r, k)`. -/
theorem idx_ip_col (r i k : Fin 384) : idx_main_v10 (idx_main_v12 (ix3 r i k)) = ix2 r i :=
  funext fun a => Fin.ext (by match a with | ⟨0, _⟩ => rfl | ⟨1, _⟩ => rfl)
theorem idx_ip_row (r i k : Fin 384) : idx_main_v11 (idx_main_v13 (ix3 r i k)) = ix2 r k :=
  funext fun a => Fin.ext (by match a with | ⟨0, _⟩ => rfl | ⟨1, _⟩ => rfl)
theorem idx_pos_col (r i k : Fin 384) : idx_main_v20 (idx_main_v22 (ix3 r i k)) = ix2 r i :=
  funext fun a => Fin.ext (by match a with | ⟨0, _⟩ => rfl | ⟨1, _⟩ => rfl)
theorem idx_neg_row (r i k : Fin 384) : idx_main_v21 (idx_main_v23 (ix3 r i k)) = ix2 r k :=
  funext fun a => Fin.ext (by match a with | ⟨0, _⟩ => rfl | ⟨1, _⟩ => rfl)

/-- The cube's entry at `(r, i, k)` is the pair loss's summand of `ip` and `pos`. -/
theorem cube_apply (r i k : Fin 384) :
    val_main_v30 (F := Ideal) x0 x1 (ix3 r i k)
      = softplus (negMargin (val_main_v2 (F := Ideal) x0 (ix2 r i)) (val_main_v2 (F := Ideal) x0 (ix2 r k)))
        * (val_main_v7 (F := Ideal) x1 (ix2 r i) * (1 - val_main_v7 (F := Ideal) x1 (ix2 r k))) := by
  simp only [val_main_v30_apply, val_main_v19_apply, val_main_call1_v4_apply, val_main_call1_v6_apply,
    val_main_call1_v11_apply, val_main_call1_v1_apply, val_main_call1_v10_apply, val_main_call1_v9_apply,
    val_main_call1_v8_apply, val_main_call1_v7_apply, val_main_call1_v3_apply, val_main_call1_v0_apply,
    val_main_call1_v2_apply, val_main_call1_v5_apply, val_main_call1_cst_apply, val_main_v18_apply, val_main_v17_apply,
    val_main_call0_v4_apply, val_main_call0_v3_apply, val_main_cst_3_apply, val_main_call0_v2_apply,
    val_main_call0_v1_apply, val_main_call0_v0_apply, val_main_cst_2_apply, val_main_v16_apply, val_main_v15_apply,
    val_main_cst_1_apply, val_main_v14_apply, val_main_v12_apply, val_main_v10_apply, val_main_v13_apply,
    val_main_v11_apply, val_main_v24_apply, val_main_v22_apply, val_main_v20_apply, val_main_v23_apply,
    val_main_v21_apply, val_main_v9_apply, val_main_v8_apply, val_main_cst_0_apply,
    idx_ip_col, idx_ip_row, idx_pos_col, idx_neg_row]
  simp only [Ideal.mulf_def, Ideal.subf_def, Ideal.addf_def, Ideal.maximumf_def, Ideal.minimumf_def, Ideal.hostNegf_def,
    Ideal.negf_def, Ideal.hostAbsf_def, Ideal.absf_def, Ideal.hostUnary_exp_def, Ideal.hostUnary_log1p_def, Ideal.cmpf_def,
    Ideal.ofBits_def, Ideal.ofBits_zero_f32, ofBits_one, sub_zero, add_zero, select_ne_self, softplus, negMargin]

/-- The reference's row sums are the pair loss of the inner products and the similarity mask. -/
theorem rowsum_eq : val_main_v31 (F := Ideal) x0 x1 = pairLoss (val_main_v2 (F := Ideal) x0) (val_main_v7 (F := Ideal) x1) := by
  funext r
  obtain ⟨r, rfl⟩ : ∃ r' : Fin 384, r = ix1 r' := ⟨r 0, eq_ix1 r⟩
  unfold val_main_v31
  simp only [Host.reduceAdd, Ideal.hostReduceAdd_def]
  rw [Cert.LibPairSum.hostReduceAdd_trailing_pair, val_main_cst_7_apply, Ideal.ofBits_def, Ideal.ofBits_zero_f32, zero_add]
  unfold pairLoss
  exact Finset.sum_congr rfl fun i _ => Finset.sum_congr rfl fun k _ => cube_apply x0 x1 r i k

/-- The similarity mask holds reals (`0` or `1`, an unsigned reading of a comparison's bit). -/
theorem pos_real (j : S384x384.Idx) : ∃ ρ : ℝ, val_main_v7 (F := Ideal) x1 j = (ρ : EReal) :=
  ⟨((val_main_v6 (F := Ideal) x1 j).toNat : ℝ), rfl⟩

/-- The reference's count of a row's dissimilar columns, the sum of `1 - pos`, is `384` minus its count of the similar
    ones: the kernel's spelling of the same number. -/
theorem negcount_eq (r : S384.Idx) :
    val_main_v26 (F := Ideal) x1 r = Ideal.ofBits .f32 0x43C00000#32 - val_main_v25 (F := Ideal) x1 r := by
  rw [val_main_v26_apply, val_main_v25_apply, val_main_cst_5_apply, val_main_cst_4_apply, Ideal.ofBits_def,
    Ideal.ofBits_zero_f32, ofBits_384]
  simp only [val_main_v9_apply, val_main_v8_apply, val_main_cst_0_apply, Ideal.subf_def, Ideal.ofBits_def, ofBits_one]
  exact (count_complement (fun k => val_main_v7 (F := Ideal) x1 (idx_main_v25 r k)) fun k => pos_real x1 _).symm

end Cert.ReferenceIdeal.RefValue

end
-- ==== Proof.RefOut.lean ====
/-
  The reference's result: the shared last stretch applied to its row sums, its pair counts and its mask of valid rows;
  and, its row sums being the pair loss, to the pair loss of its inner products and similarity mask.
-/
import proofs.«164194_j48189533061230_1_alg».proof.Proof.RefValue
import proofs.«164194_j48189533061230_1_alg».proof.Proof.Tail

noncomputable section

namespace Cert.ReferenceIdeal.RefOut

open Cert.ReferenceIdeal Cert.ReferenceIdeal.Gen Cert.ReferenceIdeal.ReadP Cert.PairLoss
open Idealize.ShloMosaic

/-- The reference's stages after the row sums are the shared last stretch, operation for operation (at any float
    family: nothing is computed, the stages unfold to it). -/
theorem out_tail {F : FTy → Type} [FloatOps F] (x0 : (⟨S384x128, .f32⟩ : BufTy).Contents (Elt F))
    (x1 : (⟨S384x80, .i32⟩ : BufTy).Contents (Elt F)) :
    val_main_v50 (F := F) x0 x1
      = Cert.Tail.loss (F := F) bcast_S_S384 reducesTo_S384_S_d0 reducesTo_S384x128_S_d0_1 h_S_ natLt_1_32
          (val_main_v31 (F := F) x0 x1) (val_main_v27 (F := F) x1) (val_main_v29 (F := F) x1) x0 := rfl

/-- So, over the extended reals, the reference's result is the last stretch of the pair loss of `ip` and `pos`. -/
theorem out_eq (x0 : (⟨S384x128, .f32⟩ : BufTy).Contents (Elt Ideal)) (x1 : (⟨S384x80, .i32⟩ : BufTy).Contents (Elt Ideal)) :
    val_main_v50 (F := Ideal) x0 x1
      = Cert.Tail.loss (F := Ideal) bcast_S_S384 reducesTo_S384_S_d0 reducesTo_S384x128_S_d0_1 h_S_ natLt_1_32
          (pairLoss (val_main_v2 (F := Ideal) x0) (val_main_v7 (F := Ideal) x1)) (val_main_v27 (F := Ideal) x1)
          (val_main_v29 (F := Ideal) x1) x0 := by
  rw [out_tail, Cert.ReferenceIdeal.RefValue.rowsum_eq]

end Cert.ReferenceIdeal.RefOut

end
-- ==== Proof.Bridge.lean ====
/-
  What the region is launched on, and the two vectors the last stretch takes from before it, are the reference's:
  the kernel's program computes the inner products `ip`, the similarity mask `pos` and the count of similar columns by
  the reference's own operations (a matrix product at another precision setting is the same contraction over the
  extended reals), and counts a row's dissimilar columns as `384` minus the similar ones where the reference sums the
  complements `1 - pos`: the same number, `pos` being 0/1.
-/
import proofs.«164194_j48189533061230_1_alg».proof.Proof.KernelRows
import proofs.«164194_j48189533061230_1_alg».proof.Proof.RefValue
import Idealize.ShloMosaic.Lib.StableHlo.Run

noncomputable section

namespace Cert.Bridge

open Cert.KernelIdeal Cert.KernelIdeal.Gen
open Cert.ReferenceIdeal.ReadP (val_main_v2 val_main_v7 val_main_v25 val_main_v26 val_main_v27 val_main_v28 val_main_v29
  val_main_v25_apply val_main_v26_apply val_main_v27_apply)
open Idealize.ShloMosaic Idealize.ShloMosaic.TcCoe Idealize.ShloMosaic.ValueIdx Idealize.SL.Sem Idealize.ShloMosaic.StableHlo

variable (m : (ℓ : Loc nD τ sig) → Buf (Elt Ideal) ℓ)

/-- The kernel's two arguments, at the reference's operand types: the codes `u` and the labels `y`. -/
abbrev codes (c : Dev nD) : (⟨Cert.ReferenceIdeal.S384x128, .f32⟩ : BufTy).Contents (Elt Ideal) :=
  m ((c.tc : Thread nD τ).loc main_arg0)
abbrev labels (c : Dev nD) : (⟨Cert.ReferenceIdeal.S384x80, .i32⟩ : BufTy).Contents (Elt Ideal) :=
  m ((c.tc : Thread nD τ).loc main_arg1)

/-- The inner products the region is launched on are the reference's. -/
theorem ip_eq (c : Dev nD) : V m c main_v2 = val_main_v2 (F := Ideal) (codes m c) := by
  show StableHlo.after (hostOps0 (F := Ideal)) (fun b => m (c, b)) (Proc.devRef .tc main_v2) = _
  after_results
  rfl

/-- The similarity mask the region is launched on is the reference's. -/
theorem pos_eq (c : Dev nD) : V m c main_v7 = val_main_v7 (F := Ideal) (labels m c) := by
  show StableHlo.after (hostOps0 (F := Ideal)) (fun b => m (c, b)) (Proc.devRef .tc main_v7) = _
  after_results
  rfl

/-- The kernel's pair count of a row, over the reference's count `n` of similar columns: `n * (384 - n)`. -/
def pairCount (c : Dev nD) : FVec Ideal S384 .f32 :=
  mulf (val_main_v25 (F := Ideal) (labels m c))
    (subf (broadcastInDim S384 ![] bcast_S_S384 (constant (F := Ideal) S_ .f32 0x43C00000#32)) (val_main_v25 (F := Ideal) (labels m c)))

/-- It is the reference's pair count `n * ∑ (1 - pos)`: the dissimilar columns are the `384` less the similar ones. -/
theorem pairCount_eq (c : Dev nD) : pairCount m c = val_main_v27 (F := Ideal) (labels m c) := by
  funext r
  rw [val_main_v27_apply]
  show val_main_v25 (F := Ideal) (labels m c) r
        * (Ideal.ofBits .f32 0x43C00000#32 - val_main_v25 (F := Ideal) (labels m c) r)
      = val_main_v25 (F := Ideal) (labels m c) r * val_main_v26 (F := Ideal) (labels m c) r
  rw [Cert.ReferenceIdeal.RefValue.negcount_eq]

/-- The pair counts the last stretch reads are those. -/
theorem pc_read (c : Dev nD) : V m c main_v11 = pairCount m c := by
  show StableHlo.after (hostOps0 (F := Ideal)) (fun b => m (c, b)) (Proc.devRef .tc main_v11) = _
  after_results
  rfl

/-- The valid-row mask the last stretch reads is their test against zero. -/
theorem rv_read (c : Dev nD) : V m c main_v13 = cmpf .ogt (pairCount m c) (val_main_v28 (F := Ideal)) := by
  show StableHlo.after (hostOps0 (F := Ideal)) (fun b => m (c, b)) (Proc.devRef .tc main_v13) = _
  after_results
  rfl

theorem pc_eq (c : Dev nD) : V m c main_v11 = val_main_v27 (F := Ideal) (labels m c) :=
  (pc_read m c).trans (pairCount_eq m c)

theorem rv_eq (c : Dev nD) : V m c main_v13 = val_main_v29 (F := Ideal) (labels m c) := by
  rw [rv_read, pairCount_eq]
  rfl

end Cert.Bridge

end
-- ==== Proof.lean ====
/-
  The pairwise ranking loss of a batch of 384 codes `u` with multi-hot labels `y`, and why the tiled kernel and the
  whole-array reference compute one number over the extended reals.

  Both programs form the inner products `ip = u uᵀ` and the similarity mask `pos = (y yᵀ > 0)` (a matrix product is the
  same contraction whatever precision it is asked at), and both end in the same last stretch: each row's sum divided by
  its pair count (similar columns times dissimilar ones), averaged over the rows that have a pair, plus a tenth of the
  mean of `(u - sign u)²`. They differ in two places.

  The row sums. The reference builds the cube `softplus (-(clip (ip r i - ip r k - 1/2))) * (pos r i * (1 - pos r k))`
  over all `(r, i, k)` and sums it over `(i, k)`. The kernel visits the rows eight at a time: a grid point loads eight
  rows of `ip` and of `pos`, builds the same summand for those rows, sums over `k` and then over `i`, and writes eight
  sums back; the 48 blocks tile the 384 rows. A finite sum in the extended reals does not depend on its order or
  grouping, so both are the double sum `pairLoss` (Proof/PairLoss.lean); the kernel spells a negation `0 - x` and both
  guard the softplus by a test `x ≠ x` that nothing passes.

  The count of a row's dissimilar columns. The reference sums the complements `1 - pos r k`; the kernel takes `384` minus
  the count of the similar ones. `pos` holds reals (`0` or `1`), so these agree.

  Modules: Proof/PairLoss.lean (the row quantity and the two facts above), Proof/KernelRows.lean (the region's result
  array), Proof/KernelTail.lean (the kernel's result), Proof/RefValue.lean and Proof/RefOut.lean (the reference's),
  Proof/Bridge.lean (the values before the region are the reference's), Proof/Tail.lean (the shared last stretch).
-/
import proofs.«164194_j48189533061230_1_alg».proof.Defs
import proofs.«164194_j48189533061230_1_alg».proof.Proof.Gen.Kernel
import proofs.«164194_j48189533061230_1_alg».proof.Proof.Gen.Kernel.Frame
import proofs.«164194_j48189533061230_1_alg».proof.Proof.Gen.KernelIdeal
import proofs.«164194_j48189533061230_1_alg».proof.Proof.Gen.KernelIdeal.Frame
import proofs.«164194_j48189533061230_1_alg».proof.Proof.Gen.ReferenceIdeal
import proofs.«164194_j48189533061230_1_alg».proof.Proof.Gen.Pre_finite_inputs
import proofs.«164194_j48189533061230_1_alg».proof.Proof.KernelTail
import proofs.«164194_j48189533061230_1_alg».proof.Proof.RefOut
import proofs.«164194_j48189533061230_1_alg».proof.Proof.Bridge
import Idealize.ShloMosaic.Adequacy
import Idealize.ShloMosaic.Init

noncomputable section

namespace Cert.Proof

open Idealize.ShloMosaic Idealize.SL.Sem

/-- The kernel's result, from what it computes before, in and after its region, is the reference's function of the two
    arguments: the arrays the region is launched on, the pair counts and the valid-row mask are the reference's, and then
    both sides are the shared last stretch of the same four values. -/
theorem result_eq (m : (ℓ : Loc Cert.KernelIdeal.nD Cert.KernelIdeal.τ Cert.KernelIdeal.sig) → Buf (Elt Ideal) ℓ)
    (c : Dev Cert.KernelIdeal.nD) :
    Cert.Tail.loss (F := Ideal) Cert.KernelIdeal.Gen.bcast_S_S384 Cert.KernelIdeal.Gen.reducesTo_S384_S_d0
        Cert.KernelIdeal.Gen.reducesTo_S384x128_S_d0_1 Cert.KernelIdeal.Gen.h_S_ Cert.KernelIdeal.Gen.natLt_1_32
        (Cert.PairLoss.pairLoss (Cert.KernelIdeal.Gen.V m c Cert.KernelIdeal.main_v2) (Cert.KernelIdeal.Gen.V m c Cert.KernelIdeal.main_v7))
        (Cert.KernelIdeal.Gen.V m c Cert.KernelIdeal.main_v11) (Cert.KernelIdeal.Gen.V m c Cert.KernelIdeal.main_v13)
        (m ((c.tc : Thread Cert.KernelIdeal.nD Cert.KernelIdeal.τ).loc Cert.KernelIdeal.main_arg0))
      = Cert.ReferenceIdeal.ReadP.val_main_v50 (F := Ideal) (Cert.Bridge.codes m c) (Cert.Bridge.labels m c) := by
  rw [Cert.Bridge.ip_eq, Cert.Bridge.pos_eq, Cert.Bridge.pc_eq, Cert.Bridge.rv_eq, Cert.ReferenceIdeal.RefOut.out_eq]

theorem frame_k : Cert.frame_Kernel := fun m ρ _ => Cert.Kernel.Gen.frame m ρ
theorem frame_ki : Cert.frame_KernelIdeal := fun m ρ _ => Cert.KernelIdeal.Gen.frame m ρ
/-- The reference has no kernel: its frame is its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The ideal pass rewrote nothing. -/
theorem preserves : Cert.preserves_Kernel_KernelIdeal := trivial

/-- From memories agreeing on `u` and `y` both programs end with the reference's function of them. -/
theorem algebraic : Cert.algebraic_KernelIdeal_ReferenceIdeal := by
  intro m ρ m' ρ' _ hagree
  refine ⟨fun c => Cert.ReferenceIdeal.ReadP.val_main_v50 (F := Ideal) (Cert.Bridge.codes m c) (Cert.Bridge.labels m c), ?_, ?_⟩
  · exact (θ_run Cert.KernelIdeal.defs _ _).mono (fun _ h c => ⟨(h c).1.trans (result_eq m c), (h c).2⟩)
      (Cert.KernelIdeal.After.run m ρ)
  · refine (θ_run Cert.ReferenceIdeal.defs _ _).mono (fun _ h c => ⟨(h c).1.trans ?_, (h c).2⟩)
      (Cert.ReferenceIdeal.ValueP.run (F := Ideal) m' ρ')
    rw [Cert.ReferenceIdeal.ReadP.val_main_v50_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
